-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x4096.size a
  hwx0_4 : ∀ i : grid0.Coords, EltTy.bits .f32 = 32 ∨ (Rect.block (s := S16384x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.Payload.lean ====
/-
  The kernel body's one stored value, at a position `(p, q)` of its 1024 x 512 block.

  The body loads a 1024 x 1024 block of the first array, a 512 x 1024 block of the second, a 1024 x 1 column of squared
  norms and a 1 x 512 row of squared norms. It multiplies the first block by the transpose of the second into a zero
  accumulator (the narrowing of both operands to sixteen-bit floats is the identity on the extended reals), spreads the
  column along the rows and the row down the columns, and stores the exponential of the clamped combination scaled by
  the word of -1/2048. At `(p, q)` that is the column's entry `p`, the row's entry `q`, and the sum over the shared axis
  of the products of row `p` of the first block with row `q` of the second.
-/
import proofs.«178481_j76819785056465_1_alg».proof.Proof.Gen.KernelIdeal.Skeleton
import proofs.«178481_j76819785056465_1_alg».proof.Proof.LibRowRowMatmul
import Idealize.ShloMosaic.Lib.Pipeline.Value
import Idealize.ShloMosaic.Lib.ValueIdx
import Idealize.ShloMosaic.PureOps.Ideal.Laws

noncomputable section

namespace Cert.Rbf.Kernel

open Idealize.ShloMosaic Idealize.ShloMosaic.ValueIdx Cert.KernelIdeal Cert.KernelIdeal.Gen
open scoped BigOperators

/-- A 1024 x 1 column spread along 512 columns: at `(p, q)` it is the column's entry `p`. -/
theorem bcast_col (v : FVec Ideal S1024x1 .f32) (p : Fin 1024) (q : Fin 512) :
    broadcastTo S1024x512 v broadcasts_S1024x1_S1024x512 (ix2 p q) = v (ix2 p 0) :=
  broadcastTo_apply v broadcasts_S1024x1_S1024x512 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A 1 x 512 row spread down 1024 rows: at `(p, q)` it is the row's entry `q`. -/
theorem bcast_row (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The block product into the zero accumulator at `(p, q)`: row `p` of the left block against row `q` of the right. -/
theorem matmul_at {φ₁ φ₂ : FTy} (a : FVec Ideal S1024x1024 φ₁) (b : FVec Ideal S512x1024 φ₂) (p : Fin 1024) (q : Fin 512) :
    matmul dot_S1024x1024_S512x1024_S1024x512_1_1_0_0_n_n none a b (constant S1024x512 .f32 0x00000000#32) (ix2 p q)
      = ∑ k : Fin 1024, a (ix2 p k) * b (ix2 q k) :=
  Cert.RowRowMatmul.matmul_zero_apply dot_S1024x1024_S512x1024_S1024x512_1_1_0_0_n_n rfl rfl rfl rfl rfl rfl none a b p q

/-- The stored value at `(p, q)`. -/
theorem pay_apply (v0 : Vec Ideal S1024x1024 .f32) (v1 : Vec Ideal S512x1024 .f32) (v5 : Vec Ideal S1024x1 .f32)
    (v7 : Vec Ideal S1x512 .f32) (p : Fin 1024) (q : Fin 512) :
    k0_pay1 (F := Ideal) v0 v1 v5 v7 (ix2 p q)
      = Ideal.exp (max ((v5 (ix2 p 0) + v7 (ix2 0 q))
          - Ideal.ofBits .f32 0x40000000#32 * ∑ k : Fin 1024, v0 (ix2 p k) * v1 (ix2 q k))
          (Ideal.ofBits .f32 0x00000000#32) * Ideal.ofBits .f32 0xBA000000#32) := by
  unfold k0_pay1
  simp only [shapeCast_self]
  show Ideal.exp (max ((broadcastTo S1024x512 v5 broadcasts_S1024x1_S1024x512 (ix2 p q)
        + broadcastTo S1024x512 v7 broadcasts_S1x512_S1024x512 (ix2 p q))
      - Ideal.ofBits .f32 0x40000000#32
        * matmul (F := Ideal) dot_S1024x1024_S512x1024_S1024x512_1_1_0_0_n_n none
            (truncf (F := Ideal) .bf16 (v0 : FVec Ideal S1024x1024 .f32) bitsLt_bf16_f32)
            (truncf (F := Ideal) .bf16 (v1 : FVec Ideal S512x1024 .f32) bitsLt_bf16_f32)
            (constant (F := Ideal) S1024x512 .f32 0x00000000#32) (ix2 p q))
      (Ideal.ofBits .f32 0x00000000#32) * Ideal.ofBits .f32 0xBA000000#32) = _
  rw [bcast_col, bcast_row, matmul_at]
  rfl

end Cert.Rbf.Kernel

end
-- ==== Proof.Spec.lean ====
/-
  The function both programs compute, index by index, on the extended reals.

  For an array `x` of 16384 rows and an array `c` of 4096 rows, each row of 1024 entries, the result at `(r, s)` is
  `exp (max (|x_r|^2 + |c_s|^2 - 2 * <x_r, c_s>, 0) * (-1/2048))`: the Gaussian of the squared distance between row
  `r` of `x` and row `s` of `c`, the squared distance expanded into the two squared norms and the inner product and
  clamped at zero. The squared norms are sums started from the zero word, as a sum over a row is; the inner product is a
  bare sum, as a matrix product's entry is. The literals stay as their words: 2 and 0 are the same words in both programs,
  and the scale is the word of -1/2048.
-/
import Idealize.ShloMosaic.PureOps.Ideal
import Idealize.ShloMosaic.Lib.ValueIdx

noncomputable section

namespace Cert.Rbf

open Idealize.ShloMosaic Idealize.ShloMosaic.ValueIdx
open scoped BigOperators

/-- The squared norm of row `r` of the 16384-row array. -/
def xsq (x : FVec Ideal ⟨2, ![16384, 1024]⟩ .f32) (r : Fin 16384) : EReal :=
  Ideal.ofBits .f32 0x00000000#32 + ∑ k : Fin 1024, x (ix2 r k) * x (ix2 r k)

/-- The squared norm of row `s` of the 4096-row array. -/
def csq (c : FVec Ideal ⟨2, ![4096, 1024]⟩ .f32) (s : Fin 4096) : EReal :=
  Ideal.ofBits .f32 0x00000000#32 + ∑ k : Fin 1024, c (ix2 s k) * c (ix2 s k)

/-- The inner product of row `r` of the first array with row `s` of the second. -/
def cross (x : FVec Ideal ⟨2, ![16384, 1024]⟩ .f32) (c : FVec Ideal ⟨2, ![4096, 1024]⟩ .f32) (r : Fin 16384) (s : Fin 4096) : EReal :=
  ∑ k : Fin 1024, x (ix2 r k) * c (ix2 s k)

/-- The squared distance between the two rows by the expansion, clamped at zero. -/
def dist2 (x : FVec Ideal ⟨2, ![16384, 1024]⟩ .f32) (c : FVec Ideal ⟨2, ![4096, 1024]⟩ .f32) (r : Fin 16384) (s : Fin 4096) : EReal :=
  max ((xsq x r + csq c s) - Ideal.ofBits .f32 0x40000000#32 * cross x c r s) (Ideal.ofBits .f32 0x00000000#32)

/-- The result array: the Gaussian of the clamped squared distance, scaled by -1/2048. -/
def rbf (x : FVec Ideal ⟨2, ![16384, 1024]⟩ .f32) (c : FVec Ideal ⟨2, ![4096, 1024]⟩ .f32) : FVec Ideal ⟨2, ![16384, 4096]⟩ .f32 :=
  fun i => Ideal.exp (dist2 x c (i 0) (i 1) * Ideal.ofBits .f32 0xBA000000#32)

/-- The result at coordinates. -/
theorem rbf_ix2 (x : FVec Ideal ⟨2, ![16384, 1024]⟩ .f32) (c : FVec Ideal ⟨2, ![4096, 1024]⟩ .f32) (r : Fin 16384) (s : Fin 4096) :
    rbf x c (ix2 r s) = Ideal.exp (dist2 x c r s * Ideal.ofBits .f32 0xBA000000#32) := rfl

end Cert.Rbf

end
-- ==== Proof.Point.lean ====
/-
  One grid point's stored value is the specification at the array position its block covers.

  If row `p` of the loaded left block is row `R` of the first array, row `q` of the loaded right block is row `S` of
  the second, the loaded column's entry `p` is the squared norm of row `R` and the loaded row's entry `q` the squared
  norm of row `S`, then what the body stores at `(p, q)` is the specification at `(R, S)`: the same exponential of the
  same clamped combination, term by term.
-/
import proofs.«178481_j76819785056465_1_alg».proof.Proof.Payload
import proofs.«178481_j76819785056465_1_alg».proof.Proof.Spec

noncomputable section

namespace Cert.Rbf.Kernel

open Idealize.ShloMosaic Idealize.ShloMosaic.ValueIdx Cert.KernelIdeal Cert.KernelIdeal.Gen
open scoped BigOperators

theorem point_eq (x : FVec Ideal S16384x1024 .f32) (y : FVec Ideal S4096x1024 .f32)
    (v0 : Vec Ideal S1024x1024 .f32) (v1 : Vec Ideal S512x1024 .f32) (v5 : Vec Ideal S1024x1 .f32) (v7 : Vec Ideal S1x512 .f32)
    (p : Fin 1024) (q : Fin 512) (R : Fin 16384) (S : Fin 4096)
    (h0 : ∀ k : Fin 1024, v0 (ix2 p k) = x (ix2 R k))
    (h1 : ∀ k : Fin 1024, v1 (ix2 q k) = y (ix2 S k))
    (h5 : v5 (ix2 p 0) = Cert.Rbf.xsq x R)
    (h7 : v7 (ix2 0 q) = Cert.Rbf.csq y S) :
    k0_pay1 (F := Ideal) v0 v1 v5 v7 (ix2 p q) = Cert.Rbf.rbf x y (ix2 R S) := by
  rw [pay_apply, Cert.Rbf.rbf_ix2, h5, h7]
  unfold Cert.Rbf.dist2 Cert.Rbf.cross
  simp only [h0, h1]

end Cert.Rbf.Kernel

end
-- ==== Proof.HostArrays.lean ====
/-
  The two arrays of squared norms the region stages, as the region finds them.

  Before the region the program squares each argument array entry by entry, sums every row from the zero word, and lays
  the 16384 sums of the first array out as a 16384 x 1 column and the 4096 sums of the second as a 1 x 4096 row. Read at
  `(r, 0)` the column is the squared norm of row `r` of the first array, and read at `(0, s)` the row is the squared
  norm of row `s` of the second: the specification's two row sums.
-/
import proofs.«178481_j76819785056465_1_alg».proof.Proof.Gen.KernelIdeal.Frame
import proofs.«178481_j76819785056465_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Kernel

open Idealize.ShloMosaic Idealize.ShloMosaic.TcCoe Idealize.ShloMosaic.ValueIdx Idealize.ShloMosaic.StableHlo Idealize.SL.Sem
open Cert.KernelIdeal Cert.KernelIdeal.Gen
open scoped BigOperators

/-- The column of row sums of squares of a 16384 x 1024 array, at `(r, 0)`: the squared norm of row `r`. -/
theorem sqcol_apply (x : FVec Ideal S16384x1024 .f32) (r : Fin 16384) :
    broadcastInDim S16384x1 ![0] bcast_S16384_S16384x1_0
        (Host.reduceAdd (F := Ideal) (mulf x x) (constant (F := Ideal) S_ .f32 0x00000000#32) reducesTo_S16384x1024_S16384_d1 h_S_)
        (ix2 r 0)
      = Cert.Rbf.xsq x r := by
  rw [broadcastInDim_apply _ bcast_S16384_S16384x1_0 _ (ix2 r 0) (ix1 r) (fun a => match a with
    | ⟨0, _⟩ => by show r.val = if (16384 : Nat) = 1 then 0 else r.val; rw [if_neg (by decide)])]
  simp only [Host.reduceAdd, Ideal.hostReduceAdd_def]
  rw [Ideal.hostReduceAdd_single reducesTo_S16384x1024_S16384_d1 (by decide)]
  unfold Cert.Rbf.xsq
  refine congrArg₂ (· + ·) rfl (Finset.sum_congr rfl fun k _ => ?_)
  rw [mulf_apply]
  have e : ∀ j, j = ix2 r k → x j * x j = x (ix2 r k) * x (ix2 r k) := fun j h => by subst h; rfl
  exact e _ (funext fun a => Fin.ext (by match a with | ⟨0, _⟩ => rfl | ⟨1, _⟩ => rfl))

/-- The row of row sums of squares of a 4096 x 1024 array, at `(0, s)`: the squared norm of row `s`. -/
theorem sqrow_apply (y : FVec Ideal S4096x1024 .f32) (s : Fin 4096) :
    broadcastInDim S1x4096 ![1] bcast_S4096_S1x4096_1
        (Host.reduceAdd (F := Ideal) (mulf y y) (constant (F := Ideal) S_ .f32 0x00000000#32) reducesTo_S4096x1024_S4096_d1 h_S_)
        (ix2 0 s)
      = Cert.Rbf.csq y s := by
  rw [broadcastInDim_apply _ bcast_S4096_S1x4096_1 _ (ix2 0 s) (ix1 s) (fun a => match a with
    | ⟨0, _⟩ => by show s.val = if (4096 : Nat) = 1 then 0 else s.val; rw [if_neg (by decide)])]
  simp only [Host.reduceAdd, Ideal.hostReduceAdd_def]
  rw [Ideal.hostReduceAdd_single reducesTo_S4096x1024_S4096_d1 (by decide)]
  unfold Cert.Rbf.csq
  refine congrArg₂ (· + ·) rfl (Finset.sum_congr rfl fun k _ => ?_)
  rw [mulf_apply]
  have e : ∀ j, j = ix2 s k → y j * y j = y (ix2 s k) * y (ix2 s k) := fun j h => by subst h; rfl
  exact e _ (funext fun a => Fin.ext (by match a with | ⟨0, _⟩ => rfl | ⟨1, _⟩ => rfl))

variable (m : (ℓ : Loc nD τ sig) → Buf (Elt Ideal) ℓ)

/-- The staged column is the host's column of row sums of squares of the first argument. -/
theorem V_sqcol (c : Dev nD) :
    (V m c main_v2 : S16384x1.Idx → EReal)
      = broadcastInDim S16384x1 ![0] bcast_S16384_S16384x1_0
          (Host.reduceAdd (F := Ideal) (mulf (m ((c : Thread nD τ).loc main_arg0)) (m ((c : Thread nD τ).loc main_arg0)))
            (constant (F := Ideal) S_ .f32 0x00000000#32) reducesTo_S16384x1024_S16384_d1 h_S_) := by
  dsimp only [Gen.V, Gen.hostOps0]; after_results

/-- The staged row is the host's row of row sums of squares of the second argument. -/
theorem V_sqrow (c : Dev nD) :
    (V m c main_v5 : S1x4096.Idx → EReal)
      = broadcastInDim S1x4096 ![1] bcast_S4096_S1x4096_1
          (Host.reduceAdd (F := Ideal) (mulf (m ((c : Thread nD τ).loc main_arg1)) (m ((c : Thread nD τ).loc main_arg1)))
            (constant (F := Ideal) S_ .f32 0x00000000#32) reducesTo_S4096x1024_S4096_d1 h_S_) := by
  dsimp only [Gen.V, Gen.hostOps0]; after_results

/-- The staged column at `(r, 0)` is the squared norm of row `r` of the first argument. -/
theorem V_sqcol_apply (c : Dev nD) (r : Fin 16384) :
    V m c main_v2 (ix2 r 0) = Cert.Rbf.xsq (m ((c : Thread nD τ).loc main_arg0)) r := by
  rw [V_sqcol]; exact sqcol_apply _ r

/-- The staged row at `(0, s)` is the squared norm of row `s` of the second argument. -/
theorem V_sqrow_apply (c : Dev nD) (s : Fin 4096) :
    V m c main_v5 (ix2 0 s) = Cert.Rbf.csq (m ((c : Thread nD τ).loc main_arg1)) s := by
  rw [V_sqrow]; exact sqrow_apply _ s

end Cert.Rbf.Kernel

end
-- ==== Proof.KernelValue.lean ====
/-
  The kernel's result array is the specification of its two arguments.

  The grid has 16 x 8 points. Point `(a, b)` loads rows `1024 a ..` of the first array, rows `512 b ..` of the second, the
  same rows of the column of squared norms and the same columns of the row of squared norms, and writes back the
  1024 x 512 block of the result at block position `(a, b)`. So what it writes at `(p, q)` of its block is the
  specification at `(1024 a + p, 512 b + q)`, and since the 128 blocks tile the 16384 x 4096 result, the whole array ends
  holding the specification.
-/
import proofs.«178481_j76819785056465_1_alg».proof.Proof.Gen.KernelIdeal.Value
import proofs.«178481_j76819785056465_1_alg».proof.Proof.Point
import proofs.«178481_j76819785056465_1_alg».proof.Proof.HostArrays

noncomputable section

namespace Cert.Rbf.Kernel

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the first array's and the column's blocks move with the result's block row, the second
    array's and the row's with its block column, and the result's block position stays inside 16 x 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every block position of the 16 x 8 tiling is some grid point's. -/
theorem idx_onto : ∀ (q0 : Fin 16) (q1 : Fin 8), ∃ t : Fin cfg0.N, win0_4.index t = ![q0.val, q1.val] :=
  (by decide +kernel : ∀ (q0 : Fin 16) (q1 : Fin 8), ∃ t : Fin grid0.N, win0_4.index t = ![q0.val, q1.val])

/-- What point `t` writes back is block `t` of the specification of the two arguments. -/
theorem flushed_eq (c : Dev nD) (t : Fin cfg0.N) :
    (dats m 0 c).flushed 4 t
      = ((cfg0.win 4).blk t).view.read (Elt Ideal)
          (Cert.Rbf.rbf (m ((c : Thread nD τ).loc main_arg0)) (m ((c : Thread nD τ).loc main_arg1))) := by
  rw [Cert.KernelIdeal.Value.flushed4]
  unfold out0_4
  rw [View.canon_unit_zero hz]
  simp only [View.ld_unit_zero (S := S1024x1024) hz, View.ld_unit_zero (S := S512x1024) hz,
    View.ld_unit_zero (S := S1024x1) hz, View.ld_unit_zero (S := S1x512) hz]
  obtain ⟨e0, e1, e2, e3, e4, e5, e6, e7, b0, b1⟩ := idx_facts t
  funext j
  obtain ⟨p, q, rfl⟩ : ∃ (p : Fin 1024) (q : Fin 512), j = ix2 p q := ⟨j 0, j 1, eq_ix2 j⟩
  have hp : p.val < 1024 := p.isLt
  have hq : q.val < 512 := q.isLt
  -- the array position this block entry covers
  let R : Fin 16384 := ⟨win0_4.index t (0 : Fin 2) * 1024 + p.val, by omega⟩
  let S : Fin 4096 := ⟨win0_4.index t (1 : Fin 2) * 512 + q.val, by omega⟩
  have hemb : ((cfg0.win 4).blk t).view.emb (ix2 p q) = ix2 R S := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 512 + 1 * q.val = win0_4.index t (1 : Fin 2) * 512 + q.val; omega
  show k0_pay1 (F := Ideal) (iblk m c 0 t) (iblk m c 1 t) (iblk m c 2 t) (iblk m c 3 t) (ix2 p q)
    = Cert.Rbf.rbf (m ((c : Thread nD τ).loc main_arg0)) (m ((c : Thread nD τ).loc main_arg1)) (((cfg0.win 4).blk t).view.emb (ix2 p q))
  rw [hemb]
  refine point_eq (m ((c : Thread nD τ).loc main_arg0)) (m ((c : Thread nD τ).loc main_arg1))
    (iblk m c 0 t) (iblk m c 1 t) (iblk m c 2 t) (iblk m c 3 t) p q R S ?_ ?_ ?_ ?_
  · -- row p of the left block is row R of the first array
    intro k
    have hk : k.val < 1024 := k.isLt
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 1024 + 1 * k.val = k.val; omega
  · -- row q of the right block is row S of the second array
    intro k
    have hk : k.val < 1024 := k.isLt
    show V m c main_arg1 (((cfg0.win 1).blk t).view.emb (ix2 q k)) = _
    rw [V_main_arg1]
    refine congrArg _ (funext fun a => Fin.ext ?_)
    match a with
    | ⟨0, _⟩ => show win0_1.index t (0 : Fin 2) * 512 + 1 * q.val = win0_4.index t (1 : Fin 2) * 512 + q.val; omega
    | ⟨1, _⟩ => show win0_1.index t (1 : Fin 2) * 1024 + 1 * k.val = k.val; omega
  · -- the loaded column's entry p is the squared norm of row R
    show V m c main_v2 (((cfg0.win 2).blk t).view.emb (ix2 p 0)) = _
    have h2 : ((cfg0.win 2).blk t).view.emb (ix2 p 0) = ix2 R 0 := by
      funext a; apply Fin.ext
      match a with
      | ⟨0, _⟩ => show win0_2.index t (0 : Fin 2) * 1024 + 1 * p.val = win0_4.index t (0 : Fin 2) * 1024 + p.val; omega
      | ⟨1, _⟩ => show win0_2.index t (1 : Fin 2) * 1 + 1 * 0 = 0; omega
    rw [h2]
    exact V_sqcol_apply m c R
  · -- the loaded row's entry q is the squared norm of row S
    show V m c main_v5 (((cfg0.win 3).blk t).view.emb (ix2 0 q)) = _
    have h3 : ((cfg0.win 3).blk t).view.emb (ix2 0 q) = ix2 0 S := by
      funext a; apply Fin.ext
      match a with
      | ⟨0, _⟩ => show win0_3.index t (0 : Fin 2) * 1 + 1 * 0 = 0; omega
      | ⟨1, _⟩ => show win0_3.index t (1 : Fin 2) * 512 + 1 * q.val = win0_4.index t (1 : Fin 2) * 512 + q.val; omega
    rw [h3]
    exact V_sqrow_apply m c S

/-- An index of the result is in point `t`'s block iff each coordinate is in the block's range on its axis. -/
theorem mem_blk (t : Fin cfg0.N) (i : S16384x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v6).slice (win0_4.rect t)).set ↔ _
  rw [View.set_slice_whole, Rect.mem_set_unit]
  exact Iff.rfl

/-- The 128 blocks tile the result: every index is in the block of the point at its block row and block column. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the run is the specification of the two arguments. -/
theorem final (c : Dev nD) :
    (dats m 0 c).arrAt 4 cfg0.N
      = Cert.Rbf.rbf (m ((c : Thread nD τ).loc main_arg0)) (m ((c : Thread nD τ).loc main_arg1)) :=
  (dats m 0 c).arrAt_eq_of_cover 4 _ (fun t _ => flushed_eq m c t) cover

/-- The kernel's run with its result named: the specification of the arguments, which end unchanged. -/
theorem run : θ_run defs (onTc (τ := τ) (main (F := Ideal))) ⟨m, fun _ => 0, ρ⟩ fun r => ∀ c : Dev nD,
      r.2.mem ((c : Thread nD τ).loc main_v6)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Kernel

end
-- ==== Proof.Consts.lean ====
/-
  The two float literals that differ between the programs, as the extended reals their words denote, and the
  one law that joins the two sides: the kernel scales the clamped squared distance by the word of -1/2048,
  the reference negates it and divides by the word of 2048. On the extended reals a quotient by a nonzero
  real is the product with its reciprocal, and a sign moves across a product, so the two agree at every
  extended real (no finiteness is needed).
-/
import Idealize.ShloMosaic.PureOps.Ideal

noncomputable section

namespace Cert.Consts

open Idealize.ShloMosaic

/-- The kernel's scale, -4.8828125e-4, is exactly -1/2048 = -2^(-11). -/
theorem ofBits_neg_inv_2048 : Ideal.ofBits .f32 0xBA000000#32 = ((-(1 / 2048) : ℝ) : EReal) := by
  simp [Ideal.ofBits, Ideal.ieee, -EReal.coe_mul]; norm_num

/-- The reference's divisor, 2 * 32 * 32, is exactly 2048 = 2^11. -/
theorem ofBits_2048 : Ideal.ofBits .f32 0x45000000#32 = ((2048 : ℝ) : EReal) := by
  simp [Ideal.ofBits, Ideal.ieee, -EReal.coe_mul]; norm_num

/-- Negating and dividing by 2048 is multiplying by -1/2048, at every extended real. -/
theorem neg_div_eq_mul (d : EReal) :
    Ideal.div (-d) (Ideal.ofBits .f32 0x45000000#32) = d * Ideal.ofBits .f32 0xBA000000#32 := by
  rw [ofBits_2048, ofBits_neg_inv_2048, Ideal.div_coe (by norm_num : (2048 : ℝ) ≠ 0), EReal.coe_neg, mul_neg, neg_mul]

end Cert.Consts

end
-- ==== Proof.RefValue.lean ====
/-
  The reference's result is the specification `Cert.Rbf.rbf` of its two arguments.

  Read one operation at a time, the reference's last stage at `(r, s)` is the exponential of the quotient by 2048 of the
  negated clamped squared distance, the squared distance assembled from the two row sums of squares (each broadcast to the
  result's shape through a column or a row) and twice the entry of the product of the first array with the second's
  transpose. The index maps of the layout operations send `(r, s)` to row `r` of the first array and row `s` of the
  second, so every piece is the specification's; what remains is that negating and dividing by 2048 is scaling by -1/2048.
-/
import proofs.«178481_j76819785056465_1_alg».proof.Proof.Gen.ReferenceIdeal.Read
import proofs.«178481_j76819785056465_1_alg».proof.Proof.Spec
import proofs.«178481_j76819785056465_1_alg».proof.Proof.Consts

noncomputable section

namespace Cert.Rbf.Ref

open Idealize.ShloMosaic Idealize.ShloMosaic.ValueIdx Cert.ReferenceIdeal Cert.ReferenceIdeal.Read
open scoped BigOperators

/-- Row `r` of the first array is what the row sum behind the column broadcast reads at `(r, s)`. -/
theorem idx_x (r : Fin 16384) (s : Fin 4096) (k : Fin 1024) :
    idx_main_v1 (idx_main_v2 (idx_main_v7 (ix2 r s))) k = ix2 r k :=
  funext fun a => Fin.ext (by match a with | ⟨0, _⟩ => rfl | ⟨1, _⟩ => rfl)

/-- Row `s` of the second array is what the row sum behind the row broadcast reads at `(r, s)`. -/
theorem idx_c (r : Fin 16384) (s : Fin 4096) (k : Fin 1024) :
    idx_main_v4 (idx_main_v6 (idx_main_v8 (ix2 r s))) k = ix2 s k :=
  funext fun a => Fin.ext (by match a with | ⟨0, _⟩ => rfl | ⟨1, _⟩ => rfl)

/-- The product's left factor at `(r, s)` runs along row `r` of the first array. -/
theorem idx_l (r : Fin 16384) (s : Fin 4096) (k : Fin 1024) : lidx_main_v5 (ix2 r s) k = ix2 r k :=
  funext fun a => Fin.ext (by match a with | ⟨0, _⟩ => rfl | ⟨1, _⟩ => rfl)

/-- The product's right factor at `(r, s)` runs along row `s` of the second array. -/
theorem idx_r (r : Fin 16384) (s : Fin 4096) (k : Fin 1024) : ridx_main_v5 (ix2 r s) k = ix2 s k :=
  funext fun a => Fin.ext (by match a with | ⟨0, _⟩ => rfl | ⟨1, _⟩ => rfl)

/-- The reference's last stage is the specification. -/
theorem val_eq (x : FVec Ideal ⟨2, ![16384, 1024]⟩ .f32) (c : FVec Ideal ⟨2, ![4096, 1024]⟩ .f32) :
    val_main_v18 (F := Ideal) x c = Cert.Rbf.rbf x c := by
  funext i
  obtain ⟨r, s, rfl⟩ : ∃ (r : Fin 16384) (s : Fin 4096), i = ix2 r s := ⟨i 0, i 1, eq_ix2 i⟩
  rw [val_main_v18_apply, val_main_v17_apply, val_main_v15_apply, val_main_v14_apply, val_main_v12_apply,
    val_main_v9_apply, val_main_v11_apply, val_main_v7_apply, val_main_v2_apply, val_main_v1_apply,
    val_main_v8_apply, val_main_v6_apply, val_main_v4_apply, val_main_v5_apply, val_main_v10_apply,
    val_main_v13_apply, val_main_v16_apply, val_main_cst_apply, val_main_cst_0_apply, val_main_cst_1_apply,
    val_main_cst_2_apply, val_main_cst_3_apply]
  simp only [val_main_v0_apply, val_main_v3_apply, idx_x, idx_c, idx_l, idx_r, Ideal.hostUnary_exp_def,
    Ideal.hostDivf_def, Ideal.hostNegf_def, Ideal.negf_def, Ideal.maximumf_def, Ideal.subf_def, Ideal.addf_def,
    Ideal.mulf_def, Ideal.ofBits_def]
  rw [Cert.Consts.neg_div_eq_mul]
  rfl

end Cert.Rbf.Ref

end
-- ==== Proof.lean ====
/-
  The kernel computes a Gaussian radial-basis feature map: for an array `x` of 16384 rows and an array of 4096 centres,
  each of 1024 entries, the result at `(r, s)` is `exp (-|x_r - c_s|^2 / 2048)`, the squared distance expanded as
  `|x_r|^2 + |c_s|^2 - 2 <x_r, c_s>` and clamped at zero. The kernel takes the two squared norms from row sums made
  before its grid runs, forms the inner products block by block as a product with a transposed operand, and scales the
  clamped distance by the word of -1/2048; the reference forms one whole product, negates the clamped distance and divides
  by 2048.

  On the extended reals both are one function of the two arguments (Proof/Spec.lean). The reference's stages read at an
  index give it directly, up to the law that negating and dividing by 2048 is scaling by -1/2048, which holds at every
  extended real (Proof/Consts.lean, Proof/RefValue.lean). On the kernel's side the stored value of a grid point at a
  block position is the specification at the array position the block covers (Proof/Payload.lean, Proof/Point.lean, with
  the staged norms read in Proof/HostArrays.lean), and the 16 x 8 blocks tile the result (Proof/KernelValue.lean). No
  step uses that the inputs are finite. The idealization rewrote no operation, so its claim is trivial; the two kernel
  frames are the generated ones and the reference's frame is its run with the result dropped.
-/
import proofs.«178481_j76819785056465_1_alg».proof.Defs
import proofs.«178481_j76819785056465_1_alg».proof.Proof.Gen.Kernel
import proofs.«178481_j76819785056465_1_alg».proof.Proof.Gen.Kernel.Skeleton
import proofs.«178481_j76819785056465_1_alg».proof.Proof.Gen.Kernel.Launch
import proofs.«178481_j76819785056465_1_alg».proof.Proof.Gen.Kernel.Points
import proofs.«178481_j76819785056465_1_alg».proof.Proof.Gen.Kernel.Frame
import proofs.«178481_j76819785056465_1_alg».proof.Proof.Gen.KernelIdeal
import proofs.«178481_j76819785056465_1_alg».proof.Proof.Gen.KernelIdeal.Skeleton
import proofs.«178481_j76819785056465_1_alg».proof.Proof.Gen.KernelIdeal.Launch
import proofs.«178481_j76819785056465_1_alg».proof.Proof.Gen.KernelIdeal.Points
import proofs.«178481_j76819785056465_1_alg».proof.Proof.Gen.KernelIdeal.Frame
import proofs.«178481_j76819785056465_1_alg».proof.Proof.Gen.ReferenceIdeal
import proofs.«178481_j76819785056465_1_alg».proof.Proof.Gen.Pre_finite_inputs
import proofs.«178481_j76819785056465_1_alg».proof.Proof.Gen.KernelIdeal.Value
import proofs.«178481_j76819785056465_1_alg».proof.Proof.Gen.ReferenceIdeal.Run
import proofs.«178481_j76819785056465_1_alg».proof.Proof.Gen.ReferenceIdeal.Read
import proofs.«178481_j76819785056465_1_alg».proof.Proof.KernelValue
import proofs.«178481_j76819785056465_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array and the reference's are the same function of them. -/
theorem algebraic : Cert.algebraic_KernelIdeal_ReferenceIdeal := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Ref.val_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
